-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x256 : Shape := ⟨2, ![2000, 256]⟩
abbrev S2000x16 : Shape := ⟨2, ![2000, 16]⟩
abbrev S3300000x16 : Shape := ⟨2, ![3300000, 16]⟩
abbrev S1x16 : Shape := ⟨2, ![1, 16]⟩
abbrev S100000x1 : Shape := ⟨2, ![100000, 1]⟩
abbrev S10000x16 : Shape := ⟨2, ![10000, 16]⟩
abbrev S10000x1 : Shape := ⟨2, ![10000, 1]⟩
abbrev S1x1 : Shape := ⟨2, ![1, 1]⟩

abbrev nBuf : Space → Nat
  | .hbm => 85
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x1, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x1, .f32⟩
  | .hbm, ⟨76, _⟩ => ⟨S3300000x1, .f32⟩
  | .hbm, ⟨77, _⟩ => ⟨S3300000x1, .f32⟩
  | .hbm, ⟨78, _⟩ => ⟨S_, .f32⟩
  | .hbm, ⟨79, _⟩ => ⟨S100000x1, .f32⟩
  | .hbm, ⟨80, _⟩ => ⟨S3300000x1, .i32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S256x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S16x1, .f32⟩
  | .local _ .vmem, ⟨8, _⟩ => ⟨S10000x1, .f32⟩
  | .local _ .vmem, ⟨9, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x256_S256x16_S2000x16_1_0_0_1_n_n_wf : DotDims.WF S2000x256 S256x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x1, .f32⟩
  | .hbm, ⟨98, _⟩ => ⟨S3300000x1, .f32⟩
  | .hbm, ⟨99, _⟩ => ⟨S3300000x1, .f32⟩
  | .hbm, ⟨100, _⟩ => ⟨S_, .f32⟩
  | .hbm, ⟨101, _⟩ => ⟨S100000x1, .f32⟩
  | .hbm, ⟨102, _⟩ => ⟨S3300000x1, .i32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S100000x256_S256x16_S100000x16_1_0_0_1_n_n_wf : DotDims.WF S100000x256 S256x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.GraphConv.lean ====
import proofs.«126678_j76888504533336_1_alg».proof.Proof.Gen.ReferenceIdeal
import Idealize.ShloMosaic.PureOps.Ideal

/-! # The graph convolution both programs share

A node feature table `h` (one row per node) is aggregated along the edge list: every edge
`(s, d)`, and every node's self loop `(v, v)`, adds `h[s] * norm` into row `d`, where
`norm = deg^{-1/2}[s] * deg^{-1/2}[d]` and `deg` counts the edges arriving at a node (self loop
included); a bias row is added at the end. Everything here is a function of the edge list alone
except the feature table and the bias, so the two layers differ only in the table's width. -/

noncomputable section

namespace Cert.GraphConv

open Cert.ReferenceIdeal Cert.ReferenceIdeal.Gen Idealize.ShloMosaic

variable {F : FTy → Type} [FloatOps F]

/-- Source endpoints: row 0 of the edge list, then the self loops `0, 1, …, N-1`. -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Destination endpoints: row 1 of the edge list, then the self loops. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An endpoint list as a column of gather indices: a negative entry is first moved up by the
    number of nodes (numpy's wrap-around), then the list becomes an `[E, 1]` column. -/
def wrapCol (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- An endpoint list as a column of scatter indices (no wrap-around). -/
def col (v : (⟨S3300000, .i32⟩ : BufTy).Contents (Elt F)) : (⟨S3300000x1, .i32⟩ : BufTy).Contents (Elt F) :=
  broadcastInDim S3300000x1 ![0] bcast_S3300000_S3300000x1_0 v

/-- In-degree of every node, self loop included: ones scattered along the destinations. -/
def deg (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (col (dst e)) (broadcastInDim S3300000 ![] bcast_S_S3300000 (constant S_ .f32 0x3F800000#32))

/-- `deg^{-1/2}` where the degree is positive, zero elsewhere. -/
def degInvSqrt (e : (⟨S2x3200000, .i32⟩ : BufTy).Contents (Elt F)) : (⟨S100000, .f32⟩ : BufTy).Contents (Elt F) :=
  select (cmpf .ogt (deg e) (broadcastInDim S100000 ![] bcast_S_S100000 (constant S_ .f32 0x00000000#32))) (Host.rsqrt (deg e)) (broadcastInDim S100000 ![] bcast_S_S100000 (id (constant S_ .f32 0x00000000#32)))

/-- The symmetric normalisation of every edge: `deg^{-1/2}` at its source times `deg^{-1/2}` at its destination. -/
def norm (e : (⟨S2x3200000, .i32⟩ : BufTy).Contents (Elt F)) : (⟨S3300000, .f32⟩ : BufTy).Contents (Elt F) :=
  mulf (Host.gather gather_S100000_S3300000x1_S3300000_n_0_n_n_0_1_1 (degInvSqrt e) (wrapCol (src e))) (Host.gather gather_S100000_S3300000x1_S3300000_n_0_n_n_0_1_1 (degInvSqrt e) (wrapCol (dst e)))

/-- Layer 1's aggregation, width 16: gather the source rows of `h`, scale each by its edge's
    normalisation, add them up per destination, add the bias row. -/
def conv16 (e : (⟨S2x3200000, .i32⟩ : BufTy).Contents (Elt F)) (b : (⟨S16, .f32⟩ : BufTy).Contents (Elt F))
    (h : (⟨S100000x16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (col (dst e)) (mulf (Host.gather gather_S100000x16_S3300000x1_S3300000x16_1_0_n_n_0_1_116 h (wrapCol (src e))) (broadcastInDim S3300000x16 ![0, 1] bcast_S3300000x1_S3300000x16_0_1 (broadcastInDim S3300000x1 ![0] bcast_S3300000_S3300000x1_0 (norm e))))) (broadcastInDim S100000x16 ![0, 1] bcast_S1x16_S100000x16_0_1 (broadcastInDim S1x16 ![1] bcast_S16_S1x16_1 b))

/-- Layer 2's aggregation, width 1: the same with one feature per node. -/
def conv1 (e : (⟨S2x3200000, .i32⟩ : BufTy).Contents (Elt F)) (b : (⟨S1, .f32⟩ : BufTy).Contents (Elt F))
    (h : (⟨S100000x1, .f32⟩ : BufTy).Contents (Elt F)) : (⟨S100000x1, .f32⟩ : BufTy).Contents (Elt F) :=
  addf (Host.scatterAdd scatter_S100000x1_S3300000x1_S3300000x1_1_0_0_1 (broadcastInDim S100000x1 ![] bcast_S_S100000x1 (constant S_ .f32 0x00000000#32)) (col (dst e)) (mulf (Host.gather gather_S100000x1_S3300000x1_S3300000x1_1_0_n_n_0_1_11 h (wrapCol (src e))) (broadcastInDim S3300000x1 ![0] bcast_S3300000_S3300000x1_0 (norm e)))) (broadcastInDim S100000x1 ![0, 1] bcast_S1x1_S100000x1_0_1 (broadcastInDim S1x1 ![1] bcast_S1_S1x1_1 b))

/-- The rectifier between the layers: the maximum with zero, entry by entry. -/
def relu (g : (⟨S100000x16, .f32⟩ : BufTy).Contents (Elt F)) : (⟨S100000x16, .f32⟩ : BufTy).Contents (Elt F) :=
  maximumf g (broadcastInDim S100000x16 ![] bcast_S_S100000x16 (constant S_ .f32 0x00000000#32))

end Cert.GraphConv

end
-- ==== Proof.KernelStages.lean ====
import proofs.«126678_j76888504533336_1_alg».proof.Proof.Gen.KernelIdeal.Launch
import proofs.«126678_j76888504533336_1_alg».proof.Proof.GraphConv
import Idealize.ShloMosaic.Lib.StableHlo.Run

/-! # The host stretches of the kernel's program, read as graph convolutions

The program runs three stretches of host operations around its two matrix products. The first builds, from
the edge list alone, the endpoint lists and the edge normalisation; the second aggregates the first product
along the edges and adds the first bias; the third does the same to the second product with the second bias.
Each stretch is read here from an arbitrary valuation of the buffers: what it leaves in the buffers later
stretches read, as a function of what it found in the buffers it reads. -/

set_option maxRecDepth 16384

noncomputable section

namespace Cert.KernelIdeal.Gen.Stages

open Idealize.ShloMosaic Idealize.ShloMosaic.TcCoe Idealize.ShloMosaic.StableHlo Cert.GraphConv

variable {F : FTy → Type} [FloatOps F]

/-! ## Before the first product: everything that depends on the edge list alone -/

section Prefix
variable (X : Valuation τ sig (Elt F))

/-- The buffers after the three stretches that precede the first product. -/
abbrev afterPrefix : Valuation τ sig (Elt F) := after hostOps0_2 (after hostOps0_1 (after hostOps0 X))

theorem prefix_src : afterPrefix X (Proc.devRef .tc main_v3) = src (X (Proc.devRef .tc main_arg1)) := by
  after_results; rfl
theorem prefix_dst : afterPrefix X (Proc.devRef .tc main_v6) = dst (X (Proc.devRef .tc main_arg1)) := by
  after_results; rfl
set_option maxHeartbeats 40000000 in
theorem prefix_norm : afterPrefix X (Proc.devRef .tc main_v29) = norm (X (Proc.devRef .tc main_arg1)) := by
  after_results; rfl
theorem prefix_arg0 : afterPrefix X (Proc.devRef .tc main_arg0) = X (Proc.devRef .tc main_arg0) := by after_results
theorem prefix_arg2 : afterPrefix X (Proc.devRef .tc main_arg2) = X (Proc.devRef .tc main_arg2) := by after_results
theorem prefix_arg3 : afterPrefix X (Proc.devRef .tc main_arg3) = X (Proc.devRef .tc main_arg3) := by after_results
theorem prefix_arg4 : afterPrefix X (Proc.devRef .tc main_arg4) = X (Proc.devRef .tc main_arg4) := by after_results
theorem prefix_arg5 : afterPrefix X (Proc.devRef .tc main_arg5) = X (Proc.devRef .tc main_arg5) := by after_results

end Prefix

/-! ## Between the products: the first layer's aggregation -/

section Middle
variable (X : Valuation τ sig (Elt F)) (e : (⟨Cert.ReferenceIdeal.S2x3200000, .i32⟩ : BufTy).Contents (Elt F))
variable (h3 : X (Proc.devRef .tc main_v3) = src e) (h6 : X (Proc.devRef .tc main_v6) = dst e)
variable (h29 : X (Proc.devRef .tc main_v29) = norm e)

set_option maxHeartbeats 16000000 in
include h3 h6 h29 in
theorem middle_conv : after hostOps1 X (Proc.devRef .tc main_v46)
    = conv16 e (X (Proc.devRef .tc main_arg3)) (X (Proc.devRef .tc main_v30)) := by
  after_results
  rw [h3, h6, h29]
  rfl
theorem middle_src : after hostOps1 X (Proc.devRef .tc main_v3) = X (Proc.devRef .tc main_v3) := by after_results
theorem middle_dst : after hostOps1 X (Proc.devRef .tc main_v6) = X (Proc.devRef .tc main_v6) := by after_results
theorem middle_norm : after hostOps1 X (Proc.devRef .tc main_v29) = X (Proc.devRef .tc main_v29) := by after_results
theorem middle_arg4 : after hostOps1 X (Proc.devRef .tc main_arg4) = X (Proc.devRef .tc main_arg4) := by after_results
theorem middle_arg5 : after hostOps1 X (Proc.devRef .tc main_arg5) = X (Proc.devRef .tc main_arg5) := by after_results

end Middle

/-! ## After the second product: the second layer's aggregation -/

section Tail
variable (X : Valuation τ sig (Elt F)) (e : (⟨Cert.ReferenceIdeal.S2x3200000, .i32⟩ : BufTy).Contents (Elt F))
variable (h3 : X (Proc.devRef .tc main_v3) = src e) (h6 : X (Proc.devRef .tc main_v6) = dst e)
variable (h29 : X (Proc.devRef .tc main_v29) = norm e)

set_option maxHeartbeats 16000000 in
include h3 h6 h29 in
theorem tail_conv : after hostOps2 X (Proc.devRef .tc main_v62)
    = conv1 e (X (Proc.devRef .tc main_arg5)) (X (Proc.devRef .tc main_v47)) := by
  after_results
  rw [h3, h6, h29]
  rfl

end Tail

end Cert.KernelIdeal.Gen.Stages

end
-- ==== Proof.Dense.lean ====
import Idealize.ShloMosaic.Lib.ValueIdx
import Idealize.ShloMosaic.PureOps.Ideal.Laws

/-! # The two dense layers over the extended reals

A table with one row per node times a weight matrix: entry `(r, q)` of the product is the sum over the
contracted width `k` of `a (r, k) * w (k, q)`. No order of summation is left at the exact values, so a
product computed row block by row block and one computed whole are the same table. The rectifier between
the layers is the maximum with zero, entry by entry. -/

noncomputable section

namespace Cert.Dense

open Idealize.ShloMosaic

/-- Layer 1: `[100000, 256]` times `[256, 16]`. -/
def layer1 (a : (⟨2, ![100000, 256]⟩ : Shape).Idx → EReal) (w : (⟨2, ![256, 16]⟩ : Shape).Idx → EReal) :
    (⟨2, ![100000, 16]⟩ : Shape).Idx → EReal :=
  fun i => ∑ k : Fin 256, a (ValueIdx.ix2 (n0 := 100000) (n1 := 256) ⟨(i 0).val, (i 0).isLt⟩ k)
    * w (ValueIdx.ix2 (n0 := 256) (n1 := 16) k ⟨(i 1).val, (i 1).isLt⟩)

/-- Layer 2: `[100000, 16]` times `[16, 1]`. -/
def layer2 (a : (⟨2, ![100000, 16]⟩ : Shape).Idx → EReal) (w : (⟨2, ![16, 1]⟩ : Shape).Idx → EReal) :
    (⟨2, ![100000, 1]⟩ : Shape).Idx → EReal :=
  fun i => ∑ k : Fin 16, a (ValueIdx.ix2 (n0 := 100000) (n1 := 16) ⟨(i 0).val, (i 0).isLt⟩ k)
    * w (ValueIdx.ix2 (n0 := 16) (n1 := 1) k ⟨(i 1).val, (i 1).isLt⟩)

/-- The rectifier on a `[100000, 16]` table. -/
def rect (g : (⟨2, ![100000, 16]⟩ : Shape).Idx → EReal) : (⟨2, ![100000, 16]⟩ : Shape).Idx → EReal :=
  fun i => max (g i) (Ideal.ofBits .f32 0x00000000#32)

end Cert.Dense

end
-- ==== Proof.Layer1Blocks.lean ====
import proofs.«126678_j76888504533336_1_alg».proof.Proof.Gen.KernelIdeal.Frame
import proofs.«126678_j76888504533336_1_alg».proof.Proof.Dense
import Idealize.ShloMosaic.Lib.Pipeline.Value
import Idealize.ShloMosaic.Lib.ValueIdx
import Idealize.ShloMosaic.PureOps.Ideal.Laws

/-! # Layer 1's product, block by block

The grid walks the node table in blocks of 2000 rows. At point `t` the body multiplies rows
`2000·t … 2000·t + 1999` of the left table by the whole weight matrix and writes the product to the same rows
of the result. Entry `(r, q)` of a product depends on row `r` of the left table only, so every block is
the restriction of ONE whole-table product, and the 50 blocks tile the result. -/

set_option maxRecDepth 16384

noncomputable section

namespace Cert.KernelIdeal.Gen.Layer1

open Idealize.ShloMosaic Idealize.ShloMosaic.TcCoe Idealize.SL.Sem
open Idealize.ShloMosaic.Pipeline (Dat)

/-! ## The block product's operand indices, axis by axis -/

theorem lhs_row (y : S2000x16.Idx) (q : dot_S2000x256_S256x16_S2000x16_1_0_0_1_n_n.contr.Idx) :
    (dot_S2000x256_S256x16_S2000x16_1_0_0_1_n_n.lhsIdx y q 0).val = (y 0).val := by
  unfold DotDims.lhsIdx
  rw [dif_neg (show ¬(0 : Fin S2000x256.rank) ∈ dot_S2000x256_S256x16_S2000x16_1_0_0_1_n_n.lhsBatch by decide), dif_pos (show (0 : Fin S2000x256.rank) ∈ dot_S2000x256_S256x16_S2000x16_1_0_0_1_n_n.lhsNonContracting by decide)]
  rfl
theorem lhs_contr (y : S2000x16.Idx) (q : dot_S2000x256_S256x16_S2000x16_1_0_0_1_n_n.contr.Idx) :
    (dot_S2000x256_S256x16_S2000x16_1_0_0_1_n_n.lhsIdx y q 1).val = (q ⟨0, by decide⟩).val :=
  dot_S2000x256_S256x16_S2000x16_1_0_0_1_n_n.lhsIdx_val_of_single rfl y q
theorem rhs_contr (y : S2000x16.Idx) (q : dot_S2000x256_S256x16_S2000x16_1_0_0_1_n_n.contr.Idx) :
    (dot_S2000x256_S256x16_S2000x16_1_0_0_1_n_n.rhsIdx y q 0).val = (q ⟨0, by decide⟩).val :=
  dot_S2000x256_S256x16_S2000x16_1_0_0_1_n_n.rhsIdx_val_of_single rfl y q
theorem rhs_col (y : S2000x16.Idx) (q : dot_S2000x256_S256x16_S2000x16_1_0_0_1_n_n.contr.Idx) :
    (dot_S2000x256_S256x16_S2000x16_1_0_0_1_n_n.rhsIdx y q 1).val = (y 1).val := by
  unfold DotDims.rhsIdx
  rw [dif_neg (show ¬(1 : Fin S256x16.rank) ∈ dot_S2000x256_S256x16_S2000x16_1_0_0_1_n_n.rhsBatch by decide), dif_pos (show (1 : Fin S256x16.rank) ∈ dot_S2000x256_S256x16_S2000x16_1_0_0_1_n_n.rhsNonContracting by decide)]
  rfl

/-- What the body stores, read at an entry of the block: the sum over the contracted width of the products of
    the left block's row and the weight matrix's column. The roundings to bf16 are the identity at the exact values. -/
theorem block_product (x0 : Vec Ideal S2000x256 .f32) (x1 : Vec Ideal S256x16 .f32) (y : S2000x16.Idx) :
    k0_pay1 (F := Ideal) x0 x1 y = ∑ k : Fin 256, x0 (ValueIdx.ix2 (n0 := 2000) (n1 := 256) ⟨(y 0).val, (y 0).isLt⟩ k) * x1 (ValueIdx.ix2 (n0 := 256) (n1 := 16) k ⟨(y 1).val, (y 1).isLt⟩) := by
  unfold k0_pay1
  dsimp only
  simp only [matmul]
  rw [Ideal.matmul_constant_zero_apply, ← Equiv.sum_comp (ValueIdx.contrEquiv1 dot_S2000x256_S256x16_S2000x16_1_0_0_1_n_n 256 rfl rfl).symm]
  refine Finset.sum_congr rfl fun k _ => ?_
  have hk := ValueIdx.contrEquiv1_symm_val dot_S2000x256_S256x16_S2000x16_1_0_0_1_n_n 256 rfl rfl k
  have el : dot_S2000x256_S256x16_S2000x16_1_0_0_1_n_n.lhsIdx y ((ValueIdx.contrEquiv1 dot_S2000x256_S256x16_S2000x16_1_0_0_1_n_n 256 rfl rfl).symm k) = ValueIdx.ix2 (n0 := 2000) (n1 := 256) ⟨(y 0).val, (y 0).isLt⟩ k := funext fun a => Fin.ext (by
    match a with
    | ⟨0, _⟩ => exact lhs_row _ _
    | ⟨1, _⟩ => exact (lhs_contr _ _).trans hk)
  have er : dot_S2000x256_S256x16_S2000x16_1_0_0_1_n_n.rhsIdx y ((ValueIdx.contrEquiv1 dot_S2000x256_S256x16_S2000x16_1_0_0_1_n_n 256 rfl rfl).symm k) = ValueIdx.ix2 (n0 := 256) (n1 := 16) k ⟨(y 1).val, (y 1).isLt⟩ := funext fun a => Fin.ext (by
    match a with
    | ⟨0, _⟩ => exact (rhs_contr _ _).trans hk
    | ⟨1, _⟩ => exact rhs_col _ _)
  rw [el, er]
  rfl

/-! ## From the blocks to the table -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the left table's and the result's blocks are block row `t`, the
    weight matrix's block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-table product of the arrays the region finds. -/
theorem flushed_eq (c : Dev nD) (t : Fin cfg0.N) :
    (dat0 V c).flushed 2 t = ((cfg0.win 2).blk t).view.read (Elt Ideal) (Dense.layer1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x16) zero_offsets]
  obtain ⟨e0, e1, e2, e3, e4, e5⟩ := block_indices t
  funext y
  show k0_pay1 (F := Ideal) (iblk0 V c 0 t) (iblk0 V c 1 t) y = (Dense.layer1 (V c main_arg0) (V c main_arg2)) (((cfg0.win 2).blk t).view.emb y)
  refine (block_product (iblk0 V c 0 t) (iblk0 V c 1 t) y).trans ?_
  unfold Dense.layer1
  refine Finset.sum_congr rfl fun k _ => ?_
  have hy0 : (y 0).val < 2000 := (y 0).isLt
  have hy1 : (y 1).val < 16 := (y 1).isLt
  have hk : k.val < 256 := k.isLt
  have hl : iblk0 V c 0 t (ValueIdx.ix2 (n0 := 2000) (n1 := 256) ⟨(y 0).val, (y 0).isLt⟩ k)
      = V c main_arg0 (ValueIdx.ix2 (n0 := 100000) (n1 := 256) ⟨((((cfg0.win 2).blk t).view.emb y) 0).val, ((((cfg0.win 2).blk t).view.emb y) 0).isLt⟩ k) := by
    show V c main_arg0 (((cfg0.win 0).blk t).view.emb (ValueIdx.ix2 (n0 := 2000) (n1 := 256) ⟨(y 0).val, (y 0).isLt⟩ k)) = _
    refine congrArg (V c main_arg0) (funext fun a => Fin.ext ?_)
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 256 + 1 * k.val = k.val; omega
  have hr : iblk0 V c 1 t (ValueIdx.ix2 (n0 := 256) (n1 := 16) k ⟨(y 1).val, (y 1).isLt⟩)
      = V c main_arg2 (ValueIdx.ix2 (n0 := 256) (n1 := 16) k ⟨((((cfg0.win 2).blk t).view.emb y) 1).val, ((((cfg0.win 2).blk t).view.emb y) 1).isLt⟩) := by
    show V c main_arg2 (((cfg0.win 1).blk t).view.emb (ValueIdx.ix2 (n0 := 256) (n1 := 16) k ⟨(y 1).val, (y 1).isLt⟩)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 16 + 1 * (y 1).val = win0_2.index t (1 : Fin 2) * 16 + 1 * (y 1).val; omega
  rw [hl, hr]

/-- An entry of the result is in point `t`'s block iff each coordinate is in the block's range on its axis. -/
theorem mem_block (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row `r` of the result lies in the block of point `r / 2000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  have hlt : (i 0).val / 2000 < cfg0.N := by rw [hN]; omega
  obtain ⟨-, -, -, -, e4, e5⟩ := block_indices ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_block]
  intro a
  match a with
  | ⟨0, _⟩ => show win0_2.index ⟨(i 0).val / 2000, hlt⟩ (0 : Fin 2) * 2000 ≤ (i 0).val ∧ (i 0).val < win0_2.index ⟨(i 0).val / 2000, hlt⟩ (0 : Fin 2) * 2000 + 2000; omega
  | ⟨1, _⟩ => show win0_2.index ⟨(i 0).val / 2000, hlt⟩ (1 : Fin 2) * 16 ≤ (i 1).val ∧ (i 1).val < win0_2.index ⟨(i 0).val / 2000, hlt⟩ (1 : Fin 2) * 16 + 16; omega

/-- The result array after the region: the whole-table product of the arrays the region finds. -/
theorem final (c : Dev nD) : (dat0 V c).arrAt 2 cfg0.N = Dense.layer1 (V c main_arg0) (V c main_arg2) :=
  (dat0 V c).arrAt_eq_of_cover 2 (Dense.layer1 (V c main_arg0) (V c main_arg2)) (fun t _ => flushed_eq V c t) covered

end Cert.KernelIdeal.Gen.Layer1

end
-- ==== Proof.Layer2Blocks.lean ====
import proofs.«126678_j76888504533336_1_alg».proof.Proof.Gen.KernelIdeal.Frame
import proofs.«126678_j76888504533336_1_alg».proof.Proof.Dense
import Idealize.ShloMosaic.Lib.Pipeline.Value
import Idealize.ShloMosaic.Lib.ValueIdx
import Idealize.ShloMosaic.PureOps.Ideal.Laws

/-! # Layer 2's rectified product, block by block

The grid walks the node table in blocks of 10000 rows. At point `t` the body multiplies rows
`10000·t … 10000·t + 9999` of the left table, rectified entry by entry, by the whole weight matrix and writes the product to the same rows
of the result. Entry `(r, q)` of a product depends on row `r` of the left table only, so every block is
the restriction of ONE whole-table product of the rectified table, and the 10 blocks tile the result. -/

set_option maxRecDepth 16384

noncomputable section

namespace Cert.KernelIdeal.Gen.Layer2

open Idealize.ShloMosaic Idealize.ShloMosaic.TcCoe Idealize.SL.Sem
open Idealize.ShloMosaic.Pipeline (Dat)

/-! ## The block product's operand indices, axis by axis -/

theorem lhs_row (y : S10000x1.Idx) (q : dot_S10000x16_S16x1_S10000x1_1_0_0_1_n_n.contr.Idx) :
    (dot_S10000x16_S16x1_S10000x1_1_0_0_1_n_n.lhsIdx y q 0).val = (y 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
theorem lhs_contr (y : S10000x1.Idx) (q : dot_S10000x16_S16x1_S10000x1_1_0_0_1_n_n.contr.Idx) :
    (dot_S10000x16_S16x1_S10000x1_1_0_0_1_n_n.lhsIdx y q 1).val = (q ⟨0, by decide⟩).val :=
  dot_S10000x16_S16x1_S10000x1_1_0_0_1_n_n.lhsIdx_val_of_single rfl y q
theorem rhs_contr (y : S10000x1.Idx) (q : dot_S10000x16_S16x1_S10000x1_1_0_0_1_n_n.contr.Idx) :
    (dot_S10000x16_S16x1_S10000x1_1_0_0_1_n_n.rhsIdx y q 0).val = (q ⟨0, by decide⟩).val :=
  dot_S10000x16_S16x1_S10000x1_1_0_0_1_n_n.rhsIdx_val_of_single rfl y q
theorem rhs_col (y : S10000x1.Idx) (q : dot_S10000x16_S16x1_S10000x1_1_0_0_1_n_n.contr.Idx) :
    (dot_S10000x16_S16x1_S10000x1_1_0_0_1_n_n.rhsIdx y q 1).val = (y 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- What the body stores, read at an entry of the block: the sum over the contracted width of the products of
    the left block's rectified row and the weight matrix's column. The roundings to bf16 are the identity at the exact values. -/
theorem block_product (x0 : Vec Ideal S10000x16 .f32) (x1 : Vec Ideal S16x1 .f32) (y : S10000x1.Idx) :
    k1_pay1 (F := Ideal) x0 x1 y = ∑ k : Fin 16, max (x0 (ValueIdx.ix2 (n0 := 10000) (n1 := 16) ⟨(y 0).val, (y 0).isLt⟩ k)) (Ideal.ofBits .f32 0x00000000#32) * x1 (ValueIdx.ix2 (n0 := 16) (n1 := 1) k ⟨(y 1).val, (y 1).isLt⟩) := by
  unfold k1_pay1
  dsimp only
  simp only [matmul, shapeCast_self]
  rw [Ideal.matmul_constant_zero_apply, ← Equiv.sum_comp (ValueIdx.contrEquiv1 dot_S10000x16_S16x1_S10000x1_1_0_0_1_n_n 16 rfl rfl).symm]
  refine Finset.sum_congr rfl fun k _ => ?_
  have hk := ValueIdx.contrEquiv1_symm_val dot_S10000x16_S16x1_S10000x1_1_0_0_1_n_n 16 rfl rfl k
  have el : dot_S10000x16_S16x1_S10000x1_1_0_0_1_n_n.lhsIdx y ((ValueIdx.contrEquiv1 dot_S10000x16_S16x1_S10000x1_1_0_0_1_n_n 16 rfl rfl).symm k) = ValueIdx.ix2 (n0 := 10000) (n1 := 16) ⟨(y 0).val, (y 0).isLt⟩ k := funext fun a => Fin.ext (by
    match a with
    | ⟨0, _⟩ => exact lhs_row _ _
    | ⟨1, _⟩ => exact (lhs_contr _ _).trans hk)
  have er : dot_S10000x16_S16x1_S10000x1_1_0_0_1_n_n.rhsIdx y ((ValueIdx.contrEquiv1 dot_S10000x16_S16x1_S10000x1_1_0_0_1_n_n 16 rfl rfl).symm k) = ValueIdx.ix2 (n0 := 16) (n1 := 1) k ⟨(y 1).val, (y 1).isLt⟩ := funext fun a => Fin.ext (by
    match a with
    | ⟨0, _⟩ => exact (rhs_contr _ _).trans hk
    | ⟨1, _⟩ => exact rhs_col _ _)
  rw [el, er]
  rfl

/-! ## From the blocks to the table -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the left table's and the result's blocks are block row `t`, the
    weight matrix's block is the whole matrix. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-table product of the rectified left table and the weight
    matrix, both as the region finds them. -/
theorem flushed_eq (c : Dev nD) (t : Fin cfg1.N) :
    (dat1 V c).flushed 2 t = ((cfg1.win 2).blk t).view.read (Elt Ideal) (Dense.layer2 (Dense.rect (V c main_v46)) (V c main_arg4)) := by
  show (cfg1.win 2).cut (grid1.coords t) ((dat1 V c).after 2 t) = _
  rw [after1_2]
  unfold out1_2
  rw [View.canon_unit_zero zero_offsets]
  simp only [View.ld_unit_zero (S := S10000x16) zero_offsets, View.ld_unit_zero (S := S16x1) zero_offsets]
  obtain ⟨e0, e1, e2, e3, e4, e5⟩ := block_indices t
  funext y
  show k1_pay1 (F := Ideal) (iblk1 V c 0 t) (iblk1 V c 1 t) y = (Dense.layer2 (Dense.rect (V c main_v46)) (V c main_arg4)) (((cfg1.win 2).blk t).view.emb y)
  refine (block_product (iblk1 V c 0 t) (iblk1 V c 1 t) y).trans ?_
  unfold Dense.layer2 Dense.rect
  refine Finset.sum_congr rfl fun k _ => ?_
  have hy0 : (y 0).val < 10000 := (y 0).isLt
  have hy1 : (y 1).val < 1 := (y 1).isLt
  have hk : k.val < 16 := k.isLt
  have hl : iblk1 V c 0 t (ValueIdx.ix2 (n0 := 10000) (n1 := 16) ⟨(y 0).val, (y 0).isLt⟩ k)
      = V c main_v46 (ValueIdx.ix2 (n0 := 100000) (n1 := 16) ⟨((((cfg1.win 2).blk t).view.emb y) 0).val, ((((cfg1.win 2).blk t).view.emb y) 0).isLt⟩ k) := by
    show V c main_v46 (((cfg1.win 0).blk t).view.emb (ValueIdx.ix2 (n0 := 10000) (n1 := 16) ⟨(y 0).val, (y 0).isLt⟩ k)) = _
    refine congrArg (V c main_v46) (funext fun a => Fin.ext ?_)
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 16 + 1 * k.val = k.val; omega
  have hr : iblk1 V c 1 t (ValueIdx.ix2 (n0 := 16) (n1 := 1) k ⟨(y 1).val, (y 1).isLt⟩)
      = V c main_arg4 (ValueIdx.ix2 (n0 := 16) (n1 := 1) k ⟨((((cfg1.win 2).blk t).view.emb y) 1).val, ((((cfg1.win 2).blk t).view.emb y) 1).isLt⟩) := by
    show V c main_arg4 (((cfg1.win 1).blk t).view.emb (ValueIdx.ix2 (n0 := 16) (n1 := 1) k ⟨(y 1).val, (y 1).isLt⟩)) = _
    refine congrArg (V c main_arg4) (funext fun a => Fin.ext ?_)
    match a with
    | ⟨0, _⟩ => show win1_1.index t (0 : Fin 2) * 16 + 1 * k.val = k.val; omega
    | ⟨1, _⟩ => show win1_1.index t (1 : Fin 2) * 1 + 1 * (y 1).val = win1_2.index t (1 : Fin 2) * 1 + 1 * (y 1).val; omega
  rw [hl, hr]

/-- An entry of the result is in point `t`'s block iff each coordinate is in the block's range on its axis. -/
theorem mem_block (t : Fin cfg1.N) (i : S100000x1.Idx) :
    i ∈ ((cfg1.win 2).blk t).view.set ↔ ∀ a : Fin 2, win1_2.index t a * S10000x1.size a ≤ (i a).val ∧ (i a).val < win1_2.index t a * S10000x1.size a + S10000x1.size a := by
  show i ∈ ((View.whole main_v47).slice (win1_2.rect t)).set ↔ _
  rw [View.set_slice_whole, Rect.mem_set_unit]
  exact Iff.rfl

/-- Row `r` of the result lies in the block of point `r / 10000`. -/
theorem covered (i : S100000x1.Idx) : ∃ t : Fin cfg1.N, (cfg1.win 2).flush t = true ∧ i ∈ ((cfg1.win 2).blk t).view.set := by
  have hi0 : (i 0).val < 100000 := (i 0).isLt
  have hi1 : (i 1).val < 1 := (i 1).isLt
  have hN : cfg1.N = 10 := N_1
  have hlt : (i 0).val / 10000 < cfg1.N := by rw [hN]; omega
  obtain ⟨-, -, -, -, e4, e5⟩ := block_indices ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_block]
  intro a
  match a with
  | ⟨0, _⟩ => show win1_2.index ⟨(i 0).val / 10000, hlt⟩ (0 : Fin 2) * 10000 ≤ (i 0).val ∧ (i 0).val < win1_2.index ⟨(i 0).val / 10000, hlt⟩ (0 : Fin 2) * 10000 + 10000; omega
  | ⟨1, _⟩ => show win1_2.index ⟨(i 0).val / 10000, hlt⟩ (1 : Fin 2) * 1 ≤ (i 1).val ∧ (i 1).val < win1_2.index ⟨(i 0).val / 10000, hlt⟩ (1 : Fin 2) * 1 + 1; omega

/-- The result array after the region: the rectified left table times the weight matrix, both as the region finds them. -/
theorem final (c : Dev nD) : (dat1 V c).arrAt 2 cfg1.N = Dense.layer2 (Dense.rect (V c main_v46)) (V c main_arg4) :=
  (dat1 V c).arrAt_eq_of_cover 2 (Dense.layer2 (Dense.rect (V c main_v46)) (V c main_arg4)) (fun t _ => flushed_eq V c t) covered

end Cert.KernelIdeal.Gen.Layer2

end
-- ==== Proof.KernelResult.lean ====
import proofs.«126678_j76888504533336_1_alg».proof.Proof.Gen.KernelIdeal.Frame
import proofs.«126678_j76888504533336_1_alg».proof.Proof.KernelStages
import proofs.«126678_j76888504533336_1_alg».proof.Proof.Layer1Blocks
import proofs.«126678_j76888504533336_1_alg».proof.Proof.Layer2Blocks

/-! # The kernel's result as two graph convolutions over two dense layers

The buffer contents are followed through @main's boundaries: the stretches before the first product leave
the endpoint lists and the edge normalisation, functions of the edge list alone, and no later item writes
them; the first region leaves the first dense layer of the launch arrays; the middle stretch aggregates it
and adds the first bias; the second region leaves the second dense layer of that table, rectified; the
last stretch aggregates once more and adds the second bias. -/

set_option maxRecDepth 16384

noncomputable section

namespace Cert.KernelIdeal.Gen.Result

open Idealize.ShloMosaic Idealize.ShloMosaic.TcCoe Idealize.ShloMosaic.StableHlo Idealize.SL.Sem Cert.GraphConv

variable (m : (ℓ : Loc nD τ sig) → Buf (Elt Ideal) ℓ) (ρ : Dev nD → PrngReg)

/-! ## At the first region's entry -/

theorem entry1_src (c : Dev nD) : W3 m ρ c (Proc.devRef .tc main_v3) = src (m ((c : Thread nD τ).loc main_arg1)) :=
  Stages.prefix_src (W0 m ρ c)
theorem entry1_dst (c : Dev nD) : W3 m ρ c (Proc.devRef .tc main_v6) = dst (m ((c : Thread nD τ).loc main_arg1)) :=
  Stages.prefix_dst (W0 m ρ c)
theorem entry1_norm (c : Dev nD) : W3 m ρ c (Proc.devRef .tc main_v29) = norm (m ((c : Thread nD τ).loc main_arg1)) :=
  Stages.prefix_norm (W0 m ρ c)
theorem entry1_arg0 (c : Dev nD) : W3 m ρ c (Proc.devRef .tc main_arg0) = m ((c : Thread nD τ).loc main_arg0) :=
  Stages.prefix_arg0 (W0 m ρ c)
theorem entry1_arg2 (c : Dev nD) : W3 m ρ c (Proc.devRef .tc main_arg2) = m ((c : Thread nD τ).loc main_arg2) :=
  Stages.prefix_arg2 (W0 m ρ c)
theorem entry1_arg3 (c : Dev nD) : W3 m ρ c (Proc.devRef .tc main_arg3) = m ((c : Thread nD τ).loc main_arg3) :=
  Stages.prefix_arg3 (W0 m ρ c)
theorem entry1_arg4 (c : Dev nD) : W3 m ρ c (Proc.devRef .tc main_arg4) = m ((c : Thread nD τ).loc main_arg4) :=
  Stages.prefix_arg4 (W0 m ρ c)
theorem entry1_arg5 (c : Dev nD) : W3 m ρ c (Proc.devRef .tc main_arg5) = m ((c : Thread nD τ).loc main_arg5) :=
  Stages.prefix_arg5 (W0 m ρ c)

/-! ## At the first region's exit: its result is the first dense layer, everything else as entered -/

theorem exit1_src (c : Dev nD) : W4 m ρ c (Proc.devRef .tc main_v3) = src (m ((c : Thread nD τ).loc main_arg1)) :=
  (W4_of_ne m ρ c main_v3 (by decide)).trans (entry1_src m ρ c)
theorem exit1_dst (c : Dev nD) : W4 m ρ c (Proc.devRef .tc main_v6) = dst (m ((c : Thread nD τ).loc main_arg1)) :=
  (W4_of_ne m ρ c main_v6 (by decide)).trans (entry1_dst m ρ c)
theorem exit1_norm (c : Dev nD) : W4 m ρ c (Proc.devRef .tc main_v29) = norm (m ((c : Thread nD τ).loc main_arg1)) :=
  (W4_of_ne m ρ c main_v29 (by decide)).trans (entry1_norm m ρ c)
theorem exit1_arg3 (c : Dev nD) : W4 m ρ c (Proc.devRef .tc main_arg3) = m ((c : Thread nD τ).loc main_arg3) :=
  (W4_of_ne m ρ c main_arg3 (by decide)).trans (entry1_arg3 m ρ c)
theorem exit1_arg4 (c : Dev nD) : W4 m ρ c (Proc.devRef .tc main_arg4) = m ((c : Thread nD τ).loc main_arg4) :=
  (W4_of_ne m ρ c main_arg4 (by decide)).trans (entry1_arg4 m ρ c)
theorem exit1_arg5 (c : Dev nD) : W4 m ρ c (Proc.devRef .tc main_arg5) = m ((c : Thread nD τ).loc main_arg5) :=
  (W4_of_ne m ρ c main_arg5 (by decide)).trans (entry1_arg5 m ρ c)
theorem exit1_product (c : Dev nD) : W4 m ρ c (Proc.devRef .tc main_v30)
    = Dense.layer1 (m ((c : Thread nD τ).loc main_arg0)) (m ((c : Thread nD τ).loc main_arg2)) := by
  refine (W4_arr m ρ c 2).trans ((Layer1.final (V3 m ρ) c).trans ?_)
  show Dense.layer1 (W3 m ρ c (Proc.devRef .tc main_arg0)) (W3 m ρ c (Proc.devRef .tc main_arg2)) = _
  rw [entry1_arg0, entry1_arg2]

/-! ## At the second region's entry: the first layer's aggregation -/

theorem entry2_src (c : Dev nD) : W5 m ρ c (Proc.devRef .tc main_v3) = src (m ((c : Thread nD τ).loc main_arg1)) :=
  (Stages.middle_src (W4 m ρ c)).trans (exit1_src m ρ c)
theorem entry2_dst (c : Dev nD) : W5 m ρ c (Proc.devRef .tc main_v6) = dst (m ((c : Thread nD τ).loc main_arg1)) :=
  (Stages.middle_dst (W4 m ρ c)).trans (exit1_dst m ρ c)
theorem entry2_norm (c : Dev nD) : W5 m ρ c (Proc.devRef .tc main_v29) = norm (m ((c : Thread nD τ).loc main_arg1)) :=
  (Stages.middle_norm (W4 m ρ c)).trans (exit1_norm m ρ c)
theorem entry2_arg4 (c : Dev nD) : W5 m ρ c (Proc.devRef .tc main_arg4) = m ((c : Thread nD τ).loc main_arg4) :=
  (Stages.middle_arg4 (W4 m ρ c)).trans (exit1_arg4 m ρ c)
theorem entry2_arg5 (c : Dev nD) : W5 m ρ c (Proc.devRef .tc main_arg5) = m ((c : Thread nD τ).loc main_arg5) :=
  (Stages.middle_arg5 (W4 m ρ c)).trans (exit1_arg5 m ρ c)
theorem entry2_table (c : Dev nD) : W5 m ρ c (Proc.devRef .tc main_v46)
    = conv16 (m ((c : Thread nD τ).loc main_arg1)) (m ((c : Thread nD τ).loc main_arg3))
        (Dense.layer1 (m ((c : Thread nD τ).loc main_arg0)) (m ((c : Thread nD τ).loc main_arg2))) := by
  have h := Stages.middle_conv (W4 m ρ c) (m ((c : Thread nD τ).loc main_arg1)) (exit1_src m ρ c) (exit1_dst m ρ c) (exit1_norm m ρ c)
  rw [exit1_arg3, exit1_product] at h
  exact h

/-! ## At the second region's exit: its result is the second dense layer of the rectified table -/

theorem exit2_src (c : Dev nD) : W6 m ρ c (Proc.devRef .tc main_v3) = src (m ((c : Thread nD τ).loc main_arg1)) :=
  (W6_of_ne m ρ c main_v3 (by decide)).trans (entry2_src m ρ c)
theorem exit2_dst (c : Dev nD) : W6 m ρ c (Proc.devRef .tc main_v6) = dst (m ((c : Thread nD τ).loc main_arg1)) :=
  (W6_of_ne m ρ c main_v6 (by decide)).trans (entry2_dst m ρ c)
theorem exit2_norm (c : Dev nD) : W6 m ρ c (Proc.devRef .tc main_v29) = norm (m ((c : Thread nD τ).loc main_arg1)) :=
  (W6_of_ne m ρ c main_v29 (by decide)).trans (entry2_norm m ρ c)
theorem exit2_arg5 (c : Dev nD) : W6 m ρ c (Proc.devRef .tc main_arg5) = m ((c : Thread nD τ).loc main_arg5) :=
  (W6_of_ne m ρ c main_arg5 (by decide)).trans (entry2_arg5 m ρ c)
theorem exit2_product (c : Dev nD) : W6 m ρ c (Proc.devRef .tc main_v47)
    = Dense.layer2 (Dense.rect (conv16 (m ((c : Thread nD τ).loc main_arg1)) (m ((c : Thread nD τ).loc main_arg3))
        (Dense.layer1 (m ((c : Thread nD τ).loc main_arg0)) (m ((c : Thread nD τ).loc main_arg2))))) (m ((c : Thread nD τ).loc main_arg4)) := by
  refine (W6_arr m ρ c 2).trans ((Layer2.final (V5 m ρ) c).trans ?_)
  show Dense.layer2 (Dense.rect (W5 m ρ c (Proc.devRef .tc main_v46))) (W5 m ρ c (Proc.devRef .tc main_arg4)) = _
  rw [entry2_table, entry2_arg4]

/-! ## At the return -/

/-- The network's output as a function of the launch arrays: the second aggregation, with the second bias, of the
    second dense layer of the rectified first aggregation, with the first bias, of the first dense layer. -/
abbrev output (c : Dev nD) : Buf (Elt Ideal) ((c : Thread nD τ).loc main_v62) :=
  conv1 (m ((c : Thread nD τ).loc main_arg1)) (m ((c : Thread nD τ).loc main_arg5))
    (Dense.layer2 (Dense.rect (conv16 (m ((c : Thread nD τ).loc main_arg1)) (m ((c : Thread nD τ).loc main_arg3))
      (Dense.layer1 (m ((c : Thread nD τ).loc main_arg0)) (m ((c : Thread nD τ).loc main_arg2))))) (m ((c : Thread nD τ).loc main_arg4)))

/-- The result buffer at the last boundary holds the network's output. -/
theorem result (c : Dev nD) : W7 m ρ c (Proc.devRef .tc main_v62) = output m c := by
  have h := Stages.tail_conv (W6 m ρ c) (m ((c : Thread nD τ).loc main_arg1)) (exit2_src m ρ c) (exit2_dst m ρ c) (exit2_norm m ρ c)
  rw [exit2_arg5, exit2_product] at h
  exact h

end Cert.KernelIdeal.Gen.Result

end
-- ==== Proof.RefLayers.lean ====
import proofs.«126678_j76888504533336_1_alg».proof.Proof.Gen.ReferenceIdeal
import proofs.«126678_j76888504533336_1_alg».proof.Proof.GraphConv
import proofs.«126678_j76888504533336_1_alg».proof.Proof.Dense
import Idealize.ShloMosaic.Lib.ValueIdx
import Idealize.ShloMosaic.PureOps.Ideal.Laws

/-! # The reference's two matrix products and its rectifier, entry by entry

At the exact values the host's matrix product is the plain sum of products over the contracted width,
whatever schedule the compiler picks, and the rectifier is the maximum with zero. -/

set_option maxRecDepth 16384

noncomputable section

namespace Cert.ReferenceIdeal.Layers

open Cert.ReferenceIdeal Cert.ReferenceIdeal.Gen Idealize.ShloMosaic Idealize.ShloMosaic.TcCoe Idealize.SL.Sem Cert.GraphConv

/-! ## The first product, `[100000, 256]` by `[256, 16]` -/

theorem first_lhs_row (i : S100000x16.Idx) (q : dot_S100000x256_S256x16_S100000x16_1_0_0_1_n_n.contr.Idx) :
    (dot_S100000x256_S256x16_S100000x16_1_0_0_1_n_n.lhsIdx i q 0).val = (i 0).val := by
  unfold DotDims.lhsIdx
  rw [dif_neg (show ¬(0 : Fin S100000x256.rank) ∈ dot_S100000x256_S256x16_S100000x16_1_0_0_1_n_n.lhsBatch by decide), dif_pos (show (0 : Fin S100000x256.rank) ∈ dot_S100000x256_S256x16_S100000x16_1_0_0_1_n_n.lhsNonContracting by decide)]
  rfl
theorem first_lhs_contr (i : S100000x16.Idx) (q : dot_S100000x256_S256x16_S100000x16_1_0_0_1_n_n.contr.Idx) :
    (dot_S100000x256_S256x16_S100000x16_1_0_0_1_n_n.lhsIdx i q 1).val = (q ⟨0, by decide⟩).val :=
  dot_S100000x256_S256x16_S100000x16_1_0_0_1_n_n.lhsIdx_val_of_single rfl i q
theorem first_rhs_contr (i : S100000x16.Idx) (q : dot_S100000x256_S256x16_S100000x16_1_0_0_1_n_n.contr.Idx) :
    (dot_S100000x256_S256x16_S100000x16_1_0_0_1_n_n.rhsIdx i q 0).val = (q ⟨0, by decide⟩).val :=
  dot_S100000x256_S256x16_S100000x16_1_0_0_1_n_n.rhsIdx_val_of_single rfl i q
theorem first_rhs_col (i : S100000x16.Idx) (q : dot_S100000x256_S256x16_S100000x16_1_0_0_1_n_n.contr.Idx) :
    (dot_S100000x256_S256x16_S100000x16_1_0_0_1_n_n.rhsIdx i q 1).val = (i 1).val := by
  unfold DotDims.rhsIdx
  rw [dif_neg (show ¬(1 : Fin S256x16.rank) ∈ dot_S100000x256_S256x16_S100000x16_1_0_0_1_n_n.rhsBatch by decide), dif_pos (show (1 : Fin S256x16.rank) ∈ dot_S100000x256_S256x16_S100000x16_1_0_0_1_n_n.rhsNonContracting by decide)]
  rfl

/-- At the exact values the host's product is the plain sum of products, whatever its schedule. -/
theorem first_eq (a : (⟨S100000x256, .f32⟩ : BufTy).Contents (Elt Ideal)) (w : (⟨S256x16, .f32⟩ : BufTy).Contents (Elt Ideal)) :
    Host.dotGeneral (F := Ideal) (φ₁ := .f32) (φ₂ := .f32) dot_S100000x256_S256x16_S100000x16_1_0_0_1_n_n none a w = Dense.layer1 a w := by
  funext i
  simp only [Host.dotGeneral]
  unfold Dense.layer1
  rw [Ideal.dotGeneral_apply, ← Equiv.sum_comp (ValueIdx.contrEquiv1 dot_S100000x256_S256x16_S100000x16_1_0_0_1_n_n 256 rfl rfl).symm]
  refine Finset.sum_congr rfl fun k _ => ?_
  have hk := ValueIdx.contrEquiv1_symm_val dot_S100000x256_S256x16_S100000x16_1_0_0_1_n_n 256 rfl rfl k
  have el : dot_S100000x256_S256x16_S100000x16_1_0_0_1_n_n.lhsIdx i ((ValueIdx.contrEquiv1 dot_S100000x256_S256x16_S100000x16_1_0_0_1_n_n 256 rfl rfl).symm k) = ValueIdx.ix2 (n0 := 100000) (n1 := 256) ⟨(i 0).val, (i 0).isLt⟩ k := funext fun a => Fin.ext (by
    match a with
    | ⟨0, _⟩ => exact first_lhs_row _ _
    | ⟨1, _⟩ => exact (first_lhs_contr _ _).trans hk)
  have er : dot_S100000x256_S256x16_S100000x16_1_0_0_1_n_n.rhsIdx i ((ValueIdx.contrEquiv1 dot_S100000x256_S256x16_S100000x16_1_0_0_1_n_n 256 rfl rfl).symm k) = ValueIdx.ix2 (n0 := 256) (n1 := 16) k ⟨(i 1).val, (i 1).isLt⟩ := funext fun a => Fin.ext (by
    match a with
    | ⟨0, _⟩ => exact (first_rhs_contr _ _).trans hk
    | ⟨1, _⟩ => exact first_rhs_col _ _)
  rw [el, er]

/-! ## The second product, `[100000, 16]` by `[16, 1]` -/

theorem second_lhs_row (i : S100000x1.Idx) (q : dot_S100000x16_S16x1_S100000x1_1_0_0_1_n_n.contr.Idx) :
    (dot_S100000x16_S16x1_S100000x1_1_0_0_1_n_n.lhsIdx i q 0).val = (i 0).val := by
  unfold DotDims.lhsIdx
  rw [dif_neg (show ¬(0 : Fin S100000x16.rank) ∈ dot_S100000x16_S16x1_S100000x1_1_0_0_1_n_n.lhsBatch by decide), dif_pos (show (0 : Fin S100000x16.rank) ∈ dot_S100000x16_S16x1_S100000x1_1_0_0_1_n_n.lhsNonContracting by decide)]
  rfl
theorem second_lhs_contr (i : S100000x1.Idx) (q : dot_S100000x16_S16x1_S100000x1_1_0_0_1_n_n.contr.Idx) :
    (dot_S100000x16_S16x1_S100000x1_1_0_0_1_n_n.lhsIdx i q 1).val = (q ⟨0, by decide⟩).val :=
  dot_S100000x16_S16x1_S100000x1_1_0_0_1_n_n.lhsIdx_val_of_single rfl i q
theorem second_rhs_contr (i : S100000x1.Idx) (q : dot_S100000x16_S16x1_S100000x1_1_0_0_1_n_n.contr.Idx) :
    (dot_S100000x16_S16x1_S100000x1_1_0_0_1_n_n.rhsIdx i q 0).val = (q ⟨0, by decide⟩).val :=
  dot_S100000x16_S16x1_S100000x1_1_0_0_1_n_n.rhsIdx_val_of_single rfl i q
theorem second_rhs_col (i : S100000x1.Idx) (q : dot_S100000x16_S16x1_S100000x1_1_0_0_1_n_n.contr.Idx) :
    (dot_S100000x16_S16x1_S100000x1_1_0_0_1_n_n.rhsIdx i q 1).val = (i 1).val := by
  unfold DotDims.rhsIdx
  rw [dif_neg (show ¬(1 : Fin S16x1.rank) ∈ dot_S100000x16_S16x1_S100000x1_1_0_0_1_n_n.rhsBatch by decide), dif_pos (show (1 : Fin S16x1.rank) ∈ dot_S100000x16_S16x1_S100000x1_1_0_0_1_n_n.rhsNonContracting by decide)]
  rfl

/-- At the exact values the host's product is the plain sum of products, whatever its schedule. -/
theorem second_eq (a : (⟨S100000x16, .f32⟩ : BufTy).Contents (Elt Ideal)) (w : (⟨S16x1, .f32⟩ : BufTy).Contents (Elt Ideal)) :
    Host.dotGeneral (F := Ideal) (φ₁ := .f32) (φ₂ := .f32) dot_S100000x16_S16x1_S100000x1_1_0_0_1_n_n none a w = Dense.layer2 a w := by
  funext i
  simp only [Host.dotGeneral]
  unfold Dense.layer2
  rw [Ideal.dotGeneral_apply, ← Equiv.sum_comp (ValueIdx.contrEquiv1 dot_S100000x16_S16x1_S100000x1_1_0_0_1_n_n 16 rfl rfl).symm]
  refine Finset.sum_congr rfl fun k _ => ?_
  have hk := ValueIdx.contrEquiv1_symm_val dot_S100000x16_S16x1_S100000x1_1_0_0_1_n_n 16 rfl rfl k
  have el : dot_S100000x16_S16x1_S100000x1_1_0_0_1_n_n.lhsIdx i ((ValueIdx.contrEquiv1 dot_S100000x16_S16x1_S100000x1_1_0_0_1_n_n 16 rfl rfl).symm k) = ValueIdx.ix2 (n0 := 100000) (n1 := 16) ⟨(i 0).val, (i 0).isLt⟩ k := funext fun a => Fin.ext (by
    match a with
    | ⟨0, _⟩ => exact second_lhs_row _ _
    | ⟨1, _⟩ => exact (second_lhs_contr _ _).trans hk)
  have er : dot_S100000x16_S16x1_S100000x1_1_0_0_1_n_n.rhsIdx i ((ValueIdx.contrEquiv1 dot_S100000x16_S16x1_S100000x1_1_0_0_1_n_n 16 rfl rfl).symm k) = ValueIdx.ix2 (n0 := 16) (n1 := 1) k ⟨(i 1).val, (i 1).isLt⟩ := funext fun a => Fin.ext (by
    match a with
    | ⟨0, _⟩ => exact (second_rhs_contr _ _).trans hk
    | ⟨1, _⟩ => exact second_rhs_col _ _)
  rw [el, er]

/-- The rectifier is the maximum with zero, entry by entry. -/
theorem relu_eq (g : (⟨S100000x16, .f32⟩ : BufTy).Contents (Elt Ideal)) : relu (F := Ideal) g = Dense.rect g := rfl

end Cert.ReferenceIdeal.Layers

end
-- ==== Proof.RefResult.lean ====
import proofs.«126678_j76888504533336_1_alg».proof.Proof.RefRun
import proofs.«126678_j76888504533336_1_alg».proof.Proof.GraphConv

/-! # The reference's result as two graph convolutions over two matrix products

The reference multiplies the node table by the first weight matrix, aggregates along the edges, rectifies,
multiplies by the second weight matrix and aggregates again. It rebuilds the edge normalisation for the
second aggregation from the same edge list by the same operations, so both aggregations carry the same
normalisation. -/

set_option maxRecDepth 16384

noncomputable section

namespace Cert.ReferenceIdeal.Folded

open Cert.ReferenceIdeal Cert.ReferenceIdeal.Gen Idealize.ShloMosaic Idealize.ShloMosaic.TcCoe Idealize.SL.Sem Cert.GraphConv

/-- The run's term for the result, folded into the two layers. -/
theorem result_eq {F : FTy → Type} [FloatOps F] (m : (ℓ : Loc nD τ sig) → Buf (Elt F) ℓ) (c : Dev nD) :
    Cert.ReferenceIdeal.ValueP.res_main_v78 m c
      = conv1 (m ((c.tc : Thread nD τ).loc main_arg1)) (m ((c.tc : Thread nD τ).loc main_arg5))
          (Host.dotGeneral dot_S100000x16_S16x1_S100000x1_1_0_0_1_n_n none
            (relu (conv16 (m ((c.tc : Thread nD τ).loc main_arg1)) (m ((c.tc : Thread nD τ).loc main_arg3))
              (Host.dotGeneral dot_S100000x256_S256x16_S100000x16_1_0_0_1_n_n none (m ((c.tc : Thread nD τ).loc main_arg0)) (m ((c.tc : Thread nD τ).loc main_arg2)))))
            (m ((c.tc : Thread nD τ).loc main_arg4))) := by
  unfold Cert.ReferenceIdeal.ValueP.res_main_v78
  rfl

end Cert.ReferenceIdeal.Folded

end
-- ==== Proof.lean ====
/- The kernel and the reference compute the same two-layer graph convolution.

   Both programs build, from the edge list alone, the endpoint lists (with the self loops appended) and the symmetric
   edge normalisation, by the same host operations. Both then aggregate a dense layer of the node table along the
   edges, add a bias, rectify, apply a second dense layer, aggregate again and add the second bias. They differ only in
   how the dense layers are computed: the reference by one whole matrix product each, the kernel by a grid of row
   blocks, each block rounded to bf16 on the way into the product. Over the extended reals the rounding is the identity
   and a product of a row block is the row block of the product, so the two results are the same function of the
   inputs, index by index; no law of arithmetic beyond that is used, and the precondition is not opened.

   The word-level kernel's frame and the idealized kernel's frame are the generated ones; the reference's frame is its
   run with the result dropped; the ideal pass rewrote nothing, so `preserves` is trivial. -/
import proofs.«126678_j76888504533336_1_alg».proof.Defs
import proofs.«126678_j76888504533336_1_alg».proof.Proof.Gen.Kernel
import proofs.«126678_j76888504533336_1_alg».proof.Proof.Gen.Kernel.Skeleton
import proofs.«126678_j76888504533336_1_alg».proof.Proof.Gen.Kernel.Launch
import proofs.«126678_j76888504533336_1_alg».proof.Proof.Gen.Kernel.Points
import proofs.«126678_j76888504533336_1_alg».proof.Proof.Gen.Kernel.Frame
import proofs.«126678_j76888504533336_1_alg».proof.Proof.Gen.KernelIdeal
import proofs.«126678_j76888504533336_1_alg».proof.Proof.Gen.KernelIdeal.Skeleton
import proofs.«126678_j76888504533336_1_alg».proof.Proof.Gen.KernelIdeal.Launch
import proofs.«126678_j76888504533336_1_alg».proof.Proof.Gen.KernelIdeal.Points
import proofs.«126678_j76888504533336_1_alg».proof.Proof.Gen.KernelIdeal.Frame
import proofs.«126678_j76888504533336_1_alg».proof.Proof.Gen.ReferenceIdeal
import proofs.«126678_j76888504533336_1_alg».proof.Proof.Gen.Pre_finite_inputs
import proofs.«126678_j76888504533336_1_alg».proof.Proof.KernelLaunched
import proofs.«126678_j76888504533336_1_alg».proof.Proof.KernelResult
import proofs.«126678_j76888504533336_1_alg».proof.Proof.RefRun
import proofs.«126678_j76888504533336_1_alg».proof.Proof.RefLayers
import proofs.«126678_j76888504533336_1_alg».proof.Proof.RefResult
import Idealize.ShloMosaic.Adequacy
import Idealize.ShloMosaic.Init

noncomputable section

namespace Cert.Proof

open Idealize.ShloMosaic Idealize.SL.Sem

/-- The reference has no kernel: it runs, and its arguments end as launched. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the network's output of the launch arrays in their result buffer. -/
theorem algebraic : Cert.algebraic_KernelIdeal_ReferenceIdeal := by
  intro m ρ m' ρ' _ hagree
  refine ⟨fun c => Cert.KernelIdeal.Gen.Result.output m c, ?_, ?_⟩
  · exact (θ_run Cert.KernelIdeal.defs _ _).mono
      (fun r h c => ⟨(h c).1.trans (Cert.KernelIdeal.Gen.Result.result m ρ c), (h c).2⟩)
      (Cert.KernelIdeal.Gen.Launched.run m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5⟩ := hagree c
    rw [Cert.ReferenceIdeal.Folded.result_eq, Cert.ReferenceIdeal.Layers.first_eq, Cert.ReferenceIdeal.Layers.relu_eq,
      Cert.ReferenceIdeal.Layers.second_eq, a0, a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
